-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩

abbrev nBuf : Space → Nat
  | .hbm => 59
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S800000x1, .f32⟩
  | .hbm, ⟨50, _⟩ => ⟨S800000x64, .f32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S64x64, .f32⟩
  | .hbm, ⟨57, _⟩ => ⟨S1x64, .f32⟩
  | .hbm, ⟨58, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v38) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x64, .f32⟩
  | .hbm, ⟨49, _⟩ => ⟨S800000x1, .f32⟩
  | .hbm, ⟨50, _⟩ => ⟨S800000x64, .f32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S64x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S50000x64, .f32⟩
  | .hbm, ⟨61, _⟩ => ⟨S_, .f32⟩
  | .hbm, ⟨62, _⟩ => ⟨S50000x64, .f32⟩
  | .hbm, ⟨63, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_cst : Ref sig .tc := ⟨.hbm, 61, rfl⟩
abbrev main_call1_v0 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.DenseRelu.lean ====
/-
  The function both programs compute, stated once over the whole arrays.

  A graph-convolution layer ends in a dense layer with a rectifier: for the aggregated node features
  `agg : [50000, 64]`, the weight matrix `W : [64, 64]` (rows are output channels) and the bias `b : [64]`,

      out[i, j] = max (Σ_k agg[i, k] · W[j, k] + b[j], 0).

  On the extended reals this is a finite sum of products, one addition and one `max`; nothing here needs the
  entries to be finite. The kernel is handed the transposed matrix `Wᵀ` and the bias as a one-row matrix;
  `denseReluRows` is the same function written over those operands, and `denseReluRows_layout` says the two
  agree once the transpose and the added unit axis are read at an index.
-/
import Idealize.ShloMosaic.PureOps.Ideal
import Idealize.ShloMosaic.Lib.ValueIdx
import Idealize.ShloMosaic.Lib.ValueLayout

noncomputable section

namespace Cert.DenseRelu

open Idealize.ShloMosaic Idealize.ShloMosaic.ValueIdx

/-- `out[i, j] = max (Σ_k agg[i, k] · W[j, k] + b[j], 0)`: the layer `relu (agg · Wᵀ + b)`. -/
def denseRelu (agg : (⟨2, ![50000, 64]⟩ : Shape).Idx → EReal) (W : (⟨2, ![64, 64]⟩ : Shape).Idx → EReal)
    (b : (⟨1, ![64]⟩ : Shape).Idx → EReal) : (⟨2, ![50000, 64]⟩ : Shape).Idx → EReal :=
  fun i => max ((∑ k : Fin 64, agg (ix2 (i 0) k) * W (ix2 (i 1) k)) + b (ix1 (i 1))) 0

theorem denseRelu_apply (agg : (⟨2, ![50000, 64]⟩ : Shape).Idx → EReal) (W : (⟨2, ![64, 64]⟩ : Shape).Idx → EReal)
    (b : (⟨1, ![64]⟩ : Shape).Idx → EReal) (p : Fin 50000) (q : Fin 64) :
    denseRelu agg W b (ix2 p q) = max ((∑ k : Fin 64, agg (ix2 p k) * W (ix2 q k)) + b (ix1 q)) 0 := rfl

/-- The same layer over the operands in the layout the kernel receives: `wt[k, j]` for `W[j, k]` and the bias
    as the single row of a `[1, 64]` matrix. -/
def denseReluRows (agg : (⟨2, ![50000, 64]⟩ : Shape).Idx → EReal) (wt : (⟨2, ![64, 64]⟩ : Shape).Idx → EReal)
    (brow : (⟨2, ![1, 64]⟩ : Shape).Idx → EReal) : (⟨2, ![50000, 64]⟩ : Shape).Idx → EReal :=
  fun i => max ((∑ k : Fin 64, agg (ix2 (i 0) k) * wt (ix2 k (i 1))) + brow (ix2 (0 : Fin 1) (i 1))) 0

theorem denseReluRows_apply (agg : (⟨2, ![50000, 64]⟩ : Shape).Idx → EReal) (wt : (⟨2, ![64, 64]⟩ : Shape).Idx → EReal)
    (brow : (⟨2, ![1, 64]⟩ : Shape).Idx → EReal) (p : Fin 50000) (q : Fin 64) :
    denseReluRows agg wt brow (ix2 p q)
      = max ((∑ k : Fin 64, agg (ix2 p k) * wt (ix2 k q)) + brow (ix2 (0 : Fin 1) q)) 0 := rfl

/-- With `wt` the transpose of `W` and `brow` the bias given a leading unit axis, the two spellings are one
    function: entry `(k, j)` of the transpose is `W[j, k]`, and entry `(0, j)` of the row is `b[j]`. -/
theorem denseReluRows_layout (agg : (⟨2, ![50000, 64]⟩ : Shape).Idx → EReal) (W : (⟨2, ![64, 64]⟩ : Shape).Idx → EReal)
    (b : (⟨1, ![64]⟩ : Shape).Idx → EReal)
    (ht : (⟨2, ![64, 64]⟩ : Shape).Transposes [1, 0] ⟨2, ![64, 64]⟩)
    (hc : (⟨1, ![64]⟩ : Shape).ShapeCasts ⟨2, ![1, 64]⟩) :
    denseReluRows agg (transpose ⟨2, ![64, 64]⟩ [1, 0] W ht) (shapeCast ⟨2, ![1, 64]⟩ b hc) = denseRelu agg W b := by
  funext i
  obtain ⟨p, q, rfl⟩ : ∃ (p : Fin 50000) (q : Fin 64), i = ix2 p q := ⟨i 0, i 1, eq_ix2 i⟩
  rw [denseReluRows_apply, denseRelu_apply, shapeCast_a_1a_apply]
  refine congrArg (fun s => max (s + b (ix1 q)) 0) (Finset.sum_congr rfl fun k _ => ?_)
  rw [transpose_ix2_apply]

end Cert.DenseRelu

end
-- ==== Proof.RefLayer.lean ====
/-
  The reference's result is the dense layer of its aggregation stage.

  After the two scatter-adds and the gathers, which this module never opens, the reference computes
  `dot_general (agg, Wᵀ)` contracting `agg`'s axis 1 with `Wᵀ`'s axis 0, adds the bias broadcast first to a row
  and then to every row, and takes the maximum with a zero splat. Read at entry `(p, q)`:
  the product is `Σ_k agg[p, k] · Wᵀ[k, q]`, the transpose's entry `(k, q)` is `W[q, k]`, both broadcasts read
  `b[q]`, and the splat's word `0x00000000` is the extended real `0` — the layer of DenseRelu.lean.
-/
import proofs.«175641_j30382598651973_1_alg».proof.Proof.Gen.ReferenceIdeal.Read
import proofs.«175641_j30382598651973_1_alg».proof.Proof.DenseRelu

noncomputable section

namespace Cert.ReferenceIdeal.Layer

open Cert.ReferenceIdeal Cert.ReferenceIdeal.Read Cert.DenseRelu Idealize.ShloMosaic Idealize.ShloMosaic.ValueIdx

/-- The reference's result, as a function of its arguments, is `denseRelu` of its aggregation stage
    (`val_main_v38`, carried whole), the weight matrix and the bias. -/
theorem result_eq (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal)) :
    val_main_v44 (F := Ideal) x0 x1 x2 x3 = denseRelu (val_main_v38 (F := Ideal) x0 x1) x2 x3 := by
  funext i
  obtain ⟨p, q, rfl⟩ : ∃ (p : Fin 50000) (q : Fin 64), i = ix2 p q := ⟨i 0, i 1, eq_ix2 i⟩
  have el : ∀ k : Fin 64, lidx_main_v40 (ix2 p q) k = ix2 p k := fun k => funext fun a => Fin.ext (by
    match a with
    | ⟨0, _⟩ => rfl
    | ⟨1, _⟩ => rfl)
  have er : ∀ k : Fin 64, idx_main_v39 (ridx_main_v40 (ix2 p q) k) = ix2 q k := fun k => funext fun a => Fin.ext (by
    match a with
    | ⟨0, _⟩ => rfl
    | ⟨1, _⟩ => rfl)
  have eb : idx_main_v41 (idx_main_v42 (ix2 p q)) = ix1 q := funext fun a => Fin.ext (by
    match a with
    | ⟨0, _⟩ => rfl)
  rw [denseRelu_apply, val_main_v44_apply, val_main_v43_apply, val_main_v40_apply, val_main_v42_apply, val_main_v41_apply,
    val_main_call1_v0_apply, val_main_call1_cst_apply, eb]
  simp only [val_main_v39_apply, el, er]
  show max (_ + _) (Ideal.ofBits .f32 0x00000000#32) = _
  rw [Ideal.ofBits_zero_f32]

end Cert.ReferenceIdeal.Layer

end
-- ==== Proof.Tile.lean ====
/-
  One grid point's arithmetic, read at an entry.

  At a grid point the body holds a tile `a : [5000, 64]` of the aggregated features, the whole transposed weight
  matrix `wt : [64, 64]` and the bias as a row `brow : [1, 64]`. It rounds `a` and `wt` to bf16 (the identity on
  the extended reals), multiplies them into a zero accumulator, adds the row to every row of the product and takes
  the maximum with zero. Entry `(p, q)` of what it stores is therefore

      max (Σ_k a[p, k] · wt[k, q] + brow[0, q], 0).

  The matrix product contracts the tile's axis 1 with the matrix's axis 0: at output entry `(p, q)` and
  contraction coordinate `k` its operand entries are `(p, k)` and `(k, q)`, which the four axis lemmas say
  coordinate by coordinate.
-/
import proofs.«175641_j30382598651973_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-! ## The product's operand entries -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The tile's product into the zero accumulator, at entry `(p, q)`: the sum over the 64 shared coordinates of
    `l[p, k] · r[k, q]`. -/
theorem product_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The stored tile at an entry -/

/-- Entry `(p, q)` of the tile the body stores: `max (Σ_k a[p, k] · wt[k, q] + brow[0, q], 0)`. The two
    roundings to bf16 and the three identity shape casts drop out, the row broadcast reads its one row, and the
    zero it is compared with is the word `0x00000000`, the extended real `0`. -/
theorem stored_apply (a : Vec Ideal S5000x64 .f32) (wt : Vec Ideal S64x64 .f32) (brow : Vec Ideal S1x64 .f32)
    (p : Fin 5000) (q : Fin 64) :
    k0_pay1 (F := Ideal) a wt brow (ix2 p q)
      = max ((∑ k : Fin 64, a (ix2 p k) * wt (ix2 k q)) + brow (ix2 (0 : Fin 1) q)) 0 := by
  unfold k0_pay1
  simp only [shapeCast_self]
  rw [maximumf_apply, addf_apply, broadcast_apply, product_apply, broadcastTo_1b_ab_apply]
  simp only [truncf_apply]
  show max _ (Ideal.ofBits .f32 0x00000000#32) = _
  rw [Ideal.ofBits_zero_f32]

end Cert.KernelIdeal.Tile

end
-- ==== Proof.Blocks.lean ====
/-
  From the ten tiles to the whole output array.

  The grid has ten points. At point `t` the first window holds rows `5000·t … 5000·t + 4999` of the aggregate
  (block index `(t, 0)`), the second and third hold the whole transposed matrix and the whole bias row (block
  index `(0, 0)` at every point), and the output window writes back rows `5000·t … 5000·t + 4999` of the result.
  Entry `(p, q)` of the tile written at `t` is the layer's entry `(5000·t + p, q)`: the tile's row `p` is the
  aggregate's row `5000·t + p`, and the other two operands are read whole. Row `r` of the output lies in the
  block of point `r / 5000`, so the ten blocks cover the array and it ends holding the layer over the arrays the
  region found.
-/
import proofs.«175641_j30382598651973_1_alg».proof.Proof.Gen.KernelIdeal.Value
import proofs.«175641_j30382598651973_1_alg».proof.Proof.Tile
import proofs.«175641_j30382598651973_1_alg».proof.Proof.DenseRelu

set_option maxRecDepth 16384

noncomputable section

namespace Cert.KernelIdeal.Blocks

open Cert.KernelIdeal Cert.KernelIdeal.Gen Cert.DenseRelu Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The block indices of the four windows at each of the ten points, decided: the first and the last move with
    the point along the rows, the two whole-array windows stay at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 10 := lt_of_lt_of_eq t.isLt N_0

/-! ## One point -/

/-- A tile whose row `p` is row `5000·n + p` of `agg`, with the matrix and the row read whole, stores at
    `(p, q)` the layer's entry `(5000·n + p, q)`. -/
theorem tile_eq (agg : (⟨2, ![50000, 64]⟩ : Shape).Idx → EReal) (wt : (⟨2, ![64, 64]⟩ : Shape).Idx → EReal)
    (brow : (⟨2, ![1, 64]⟩ : Shape).Idx → EReal)
    (a : Vec Ideal S5000x64 .f32) (w : Vec Ideal S64x64 .f32) (r : Vec Ideal S1x64 .f32) (n : Nat) (hn : n < 10)
    (ha : ∀ (p : Fin 5000) (k : Fin 64), a (ix2 p k) = agg (ix2 (⟨n * 5000 + p.val, by omega⟩ : Fin 50000) k))
    (hw : ∀ (k q : Fin 64), w (ix2 k q) = wt (ix2 k q)) (hr : ∀ q : Fin 64, r (ix2 (0 : Fin 1) q) = brow (ix2 (0 : Fin 1) q))
    (p : Fin 5000) (q : Fin 64) :
    k0_pay1 (F := Ideal) a w r (ix2 p q)
      = denseReluRows agg wt brow (ix2 (⟨n * 5000 + p.val, by omega⟩ : Fin 50000) q) := by
  rw [Tile.stored_apply, denseReluRows_apply, hr]
  simp only [ha, hw]

/-! ## The four windows' blocks, read through an arbitrary array

Each statement is about an arbitrary array `A` (or tile `X`), so nothing about the arrays' contents is ever
unfolded; the region's own arrays are put in afterwards. -/

/-- The first window's block at `t`, read at `(p, k)`, is the array at `(5000·t + p, k)`. -/
theorem rows_read (t : Fin cfg0.N) (A : S50000x64.Idx → EReal) (p : Fin 5000) (k : Fin 64) :
    ((cfg0.win 0).blk t).view.read (Elt Ideal) A (ix2 p k)
      = A (ix2 (⟨t.val * 5000 + p.val, by have := point_lt t; omega⟩ : Fin 50000) k) := by
  obtain ⟨e0, e1, -⟩ := block_indices t
  show A (((cfg0.win 0).blk t).view.emb (ix2 p k)) = _
  refine congrArg A (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- The second window's block is the whole matrix. -/
theorem matrix_read (t : Fin cfg0.N) (A : S64x64.Idx → EReal) (k q : Fin 64) :
    ((cfg0.win 1).blk t).view.read (Elt Ideal) A (ix2 k q) = A (ix2 k q) := by
  obtain ⟨-, -, e0, e1, -⟩ := block_indices t
  show A (((cfg0.win 1).blk t).view.emb (ix2 k q)) = _
  refine congrArg A (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The third window's block is the whole row. -/
theorem row_read (t : Fin cfg0.N) (A : S1x64.Idx → EReal) (q : Fin 64) :
    ((cfg0.win 2).blk t).view.read (Elt Ideal) A (ix2 (0 : Fin 1) q) = A (ix2 (0 : Fin 1) q) := by
  obtain ⟨-, -, -, -, e0, e1, -⟩ := block_indices t
  show A (((cfg0.win 2).blk t).view.emb (ix2 (0 : Fin 1) q)) = _
  refine congrArg A (funext fun a => Fin.ext ?_)
  match a with
  | ⟨0, _⟩ => show win0_2.index t (0 : Fin 2) * 1 + 1 * 0 = 0; omega
  | ⟨1, _⟩ => show win0_2.index t (1 : Fin 2) * 64 + 1 * q.val = q.val; omega

/-- Entry `(p, q)` of the output block at `t` sits in the array at `(5000·t + p, q)`. -/
theorem out_read (t : Fin cfg0.N) (A : S50000x64.Idx → EReal) (p : Fin 5000) (q : Fin 64) :
    ((cfg0.win 3).blk t).view.read (Elt Ideal) A (ix2 p q)
      = A (ix2 (⟨t.val * 5000 + p.val, by have := point_lt t; omega⟩ : Fin 50000) q) := by
  obtain ⟨-, -, -, -, -, -, e0, e1⟩ := block_indices t
  show A (((cfg0.win 3).blk t).view.emb (ix2 p q)) = _
  refine congrArg A (funext fun a => Fin.ext ?_)
  match a with
  | ⟨0, _⟩ => show win0_3.index t (0 : Fin 2) * 5000 + 1 * p.val = t.val * 5000 + p.val; omega
  | ⟨1, _⟩ => show win0_3.index t (1 : Fin 2) * 64 + 1 * q.val = q.val; omega

/-- The output window is never cut: what a write-back writes of a tile `X` is `X`. -/
theorem out_whole (t : Fin cfg0.N) (X : S5000x64.Idx → EReal) (p : Fin 5000) (q : Fin 64) :
    (cfg0.win 3).cut (grid0.coords t) X (ix2 p q) = X (ix2 p q) := rfl

/-! ## One point, over the region's arrays -/

theorem read_agg (c : Dev nD) (t : Fin cfg0.N) (p : Fin 5000) (k : Fin 64) :
    iblk m c 0 t (ix2 p k)
      = V m c main_v38 (ix2 (⟨t.val * 5000 + p.val, by have := point_lt t; omega⟩ : Fin 50000) k) := by
  unfold iblk
  exact rows_read t (V m c main_v38) p k

theorem read_wt (c : Dev nD) (t : Fin cfg0.N) (k q : Fin 64) :
    iblk m c 1 t (ix2 k q) = V m c main_v39 (ix2 k q) := by
  unfold iblk
  exact matrix_read t (V m c main_v39) k q

theorem read_brow (c : Dev nD) (t : Fin cfg0.N) (q : Fin 64) :
    iblk m c 2 t (ix2 (0 : Fin 1) q) = V m c main_v40 (ix2 (0 : Fin 1) q) := by
  unfold iblk
  exact row_read t (V m c main_v40) q

/-- WHAT POINT `t` WRITES BACK is block `t` of the layer over the arrays the region found. -/
theorem flushed_eq (c : Dev nD) (t : Fin cfg0.N) :
    (dats m 0 c).flushed 3 t
      = ((cfg0.win 3).blk t).view.read (Elt Ideal) (denseReluRows (V m c main_v38) (V m c main_v39) (V m c main_v40)) := by
  rw [Value.flushed3]
  unfold out0_3
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  refine (out_whole t _ p q).trans ?_
  refine Eq.trans ?_ (out_read t _ p q).symm
  exact tile_eq (V m c main_v38) (V m c main_v39) (V m c main_v40) (iblk m c 0 t) (iblk m c 1 t) (iblk m c 2 t) t.val
    (point_lt t) (fun p k => read_agg m c t p k) (fun k q => read_wt m c t k q) (fun q => read_brow m c t q) p q

/-! ## The ten blocks cover the array -/

/-- An index of the array is in point `t`'s block iff each coordinate is in the block's range on its axis. -/
theorem mem_block (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v41).slice (win0_3.rect t)).set ↔ _
  rw [View.set_slice_whole, Rect.mem_set_unit]
  exact Iff.rfl

/-- Row `r` lies in the block of point `r / 5000`. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : (i 0).val / 5000 < cfg0.N := by show (i 0).val / 5000 < grid0.N; rw [N_0]; omega
  obtain ⟨-, -, -, -, -, -, e0, e1⟩ := block_indices ⟨(i 0).val / 5000, hN⟩
  refine ⟨⟨(i 0).val / 5000, hN⟩, flush0_3 _, ?_⟩
  rw [mem_block]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_3.index ⟨(i 0).val / 5000, hN⟩ (1 : Fin 2) * 64 ≤ (i 1).val ∧ (i 1).val < win0_3.index ⟨(i 0).val / 5000, hN⟩ (1 : Fin 2) * 64 + 64
    rw [e1]; omega

/-- THE ARRAY after the run: the layer over the arrays the region found. -/
theorem final (c : Dev nD) :
    (dats m 0 c).arrAt 3 cfg0.N = denseReluRows (V m c main_v38) (V m c main_v39) (V m c main_v40) :=
  (dats m 0 c).arrAt_eq_of_cover 3 _ (fun t _ => flushed_eq m c t) covered

end Cert.KernelIdeal.Blocks

end
-- ==== Proof.LibAfterAppend.lean ====
/-
  A straight line of host operations run in two stretches.

  `StableHlo.after ops V` folds the operations' results over the buffer contents `V`. Folding a concatenation is
  folding the first stretch and then the second from what the first left, so the contents after a long line can
  be read one stretch at a time, each from an arbitrary valuation.
-/
import Idealize.ShloMosaic.Lib.StableHlo.Run

namespace Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Idealize.ShloMosaic.StableHlo
-- ==== Proof.Entry.lean ====
/-
  What the region's three input arrays hold when it starts.

  Before the region the kernel's program runs, operation for operation, the host chain the reference runs: the
  two index rows cut from `edge_index`, the degree of each target node by a scatter-add of ones, its clip at one
  and power `-1/2`, the two gathers of that norm and their product, the gather of the source rows of `x`, their
  scaling, and the scatter-add into the aggregate `agg`. The chain is read in its three stretches — up to the
  degree, the clip (a function of its own in the program), and the rest — each from an ARBITRARY valuation of
  the buffers, so that each stretch is compared with the reference's stages of the same name while everything
  upstream of it is a variable. Composed, the array the region stages through its first window is the
  reference's aggregation stage of the same two arguments. The second window's array is the transpose of `W`, the
  third's is `b` given a leading unit axis.
-/
import proofs.«175641_j30382598651973_1_alg».proof.Proof.Gen.KernelIdeal.Frame
import proofs.«175641_j30382598651973_1_alg».proof.Proof.Gen.ReferenceIdeal.Read
import proofs.«175641_j30382598651973_1_alg».proof.Proof.LibAfterAppend
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Core `c`'s buffers as launched. -/
abbrev launched (c : Dev nD) : Valuation τ sig (Elt Ideal) := fun b => m (c, b)

/-- The buffers at the region's entry, one stretch of the host chain after another. -/
theorem V_stretches (c : Dev nD) (r : Ref sig .tc) :
    V m c r = after hostOps0_2 (after hostOps0_1 (after hostOps0 (launched m c))) (Proc.devRef .tc r) := by
  show after (List.flatten [hostOps0, hostOps0_1, hostOps0_2]) (launched m c) (Proc.devRef .tc r) = _
  rw [show List.flatten [hostOps0 (F := Ideal), hostOps0_1, hostOps0_2] = hostOps0 ++ (hostOps0_1 ++ hostOps0_2) from by
    simp only [List.flatten_cons, List.flatten_nil, List.append_nil], after_append, after_append]

/-! ## The first stretch: the index rows and the degree -/

section first
variable (c : Dev nD)

set_option maxRecDepth 8192 in
theorem first_src : (after hostOps0 (launched m c) (Proc.devRef .tc main_v1) : S800000.Idx → BitVec 32)
    = Cert.ReferenceIdeal.Read.val_main_v1 (F := Ideal) (m ((c : Thread nD τ).loc main_arg1)) := by
  simp only [hostOps0]; after_results_simp <;> rfl

set_option maxRecDepth 8192 in
theorem first_tgt : (after hostOps0 (launched m c) (Proc.devRef .tc main_v3) : S800000.Idx → BitVec 32)
    = Cert.ReferenceIdeal.Read.val_main_v3 (F := Ideal) (m ((c : Thread nD τ).loc main_arg1)) := by
  simp only [hostOps0]; after_results_simp <;> rfl

set_option maxRecDepth 8192 in
theorem first_deg : (after hostOps0 (launched m c) (Proc.devRef .tc main_v7) : S50000.Idx → EReal)
    = Cert.ReferenceIdeal.Read.val_main_v7 (F := Ideal) (m ((c : Thread nD τ).loc main_arg1)) := by
  simp only [hostOps0]; after_results_simp <;> rfl

set_option maxRecDepth 8192 in
theorem first_one : (after hostOps0 (launched m c) (Proc.devRef .tc main_cst_1) : S_.Idx → EReal)
    = Cert.ReferenceIdeal.Read.val_main_cst_1 (F := Ideal) := by
  simp only [hostOps0]; after_results_simp <;> rfl

set_option maxRecDepth 8192 in
theorem first_x : (after hostOps0 (launched m c) (Proc.devRef .tc main_arg0) : S50000x64.Idx → EReal)
    = m ((c : Thread nD τ).loc main_arg0) := by
  simp only [hostOps0]; after_results_simp <;> rfl

end first

/-! ## The second stretch: the clip, from any valuation -/

section clip
variable (G : Valuation τ sig (Elt Ideal))

/-- The clip of a degree array `d` at the constant `k`: `max (k, d)` entry by entry. -/
theorem clip_eq (d : S50000.Idx → EReal) (k : S_.Idx → EReal)
    (hd : (G (Proc.devRef .tc main_v7) : S50000.Idx → EReal) = d) (hk : (G (Proc.devRef .tc main_cst_1) : S_.Idx → EReal) = k) :
    (after hostOps0_1 G (Proc.devRef .tc main_v8) : S50000.Idx → EReal)
      = (maximumf (F := Ideal) (φ := .f32) (broadcastInDim S50000 ![] bcast_S_S50000 (id k)) d : S50000.Idx → EReal) := by
  subst hd hk
  simp only [hostOps0_1]; after_results_simp <;> rfl

theorem clip_keeps_src : after hostOps0_1 G (Proc.devRef .tc main_v1) = G (Proc.devRef .tc main_v1) := by
  simp only [hostOps0_1]; after_results_simp <;> rfl
theorem clip_keeps_tgt : after hostOps0_1 G (Proc.devRef .tc main_v3) = G (Proc.devRef .tc main_v3) := by
  simp only [hostOps0_1]; after_results_simp <;> rfl
theorem clip_keeps_x : after hostOps0_1 G (Proc.devRef .tc main_arg0) = G (Proc.devRef .tc main_arg0) := by
  simp only [hostOps0_1]; after_results_simp <;> rfl
theorem clip_keeps_W : after hostOps0_1 G (Proc.devRef .tc main_arg2) = G (Proc.devRef .tc main_arg2) := by
  simp only [hostOps0_1]; after_results_simp <;> rfl
theorem clip_keeps_b : after hostOps0_1 G (Proc.devRef .tc main_arg3) = G (Proc.devRef .tc main_arg3) := by
  simp only [hostOps0_1]; after_results_simp <;> rfl

end clip

/-! ## The third stretch: the norm, the messages and their aggregation, from any valuation -/

section rest
variable (G : Valuation τ sig (Elt Ideal))

set_option maxRecDepth 8192 in
set_option maxHeartbeats 2000000 in
/-- From buffers whose index rows and clipped degree are the reference's stages of `e` and whose feature array is
    `x`, the last stretch leaves the reference's aggregation stage of `x` and `e`. -/
theorem rest_agg (x : S50000x64.Idx → EReal) (e : S2x800000.Idx → BitVec 32)
    (hx : (G (Proc.devRef .tc main_arg0) : S50000x64.Idx → EReal) = x)
    (hs : (G (Proc.devRef .tc main_v1) : S800000.Idx → BitVec 32) = Cert.ReferenceIdeal.Read.val_main_v1 (F := Ideal) e)
    (ht : (G (Proc.devRef .tc main_v3) : S800000.Idx → BitVec 32) = Cert.ReferenceIdeal.Read.val_main_v3 (F := Ideal) e)
    (hc : (G (Proc.devRef .tc main_v8) : S50000.Idx → EReal) = Cert.ReferenceIdeal.Read.val_main_v8 (F := Ideal) e) :
    (after hostOps0_2 G (Proc.devRef .tc main_v38) : S50000x64.Idx → EReal)
      = Cert.ReferenceIdeal.Read.val_main_v38 (F := Ideal) x e := by
  simp only [hostOps0_2]
  after_results_simp
  rw [hx, hs, ht, hc]
  rfl

set_option maxRecDepth 8192 in
theorem rest_wt : (after hostOps0_2 G (Proc.devRef .tc main_v39) : S64x64.Idx → EReal)
    = transpose S64x64 [1, 0] (G (Proc.devRef .tc main_arg2)) transposes_S64x64_S64x64_1_0 := by
  simp only [hostOps0_2]; after_results_simp <;> rfl

set_option maxRecDepth 8192 in
theorem rest_brow : (after hostOps0_2 G (Proc.devRef .tc main_v40) : S1x64.Idx → EReal)
    = shapeCast S1x64 (G (Proc.devRef .tc main_arg3)) shapeCasts_S64_S1x64 := by
  simp only [hostOps0_2]; after_results_simp <;> rfl

end rest

/-! ## The three arrays -/

/-- The clipped degree after the first two stretches is the reference's stage of that name. -/
theorem clipped_deg (c : Dev nD) :
    (after hostOps0_1 (after hostOps0 (launched m c)) (Proc.devRef .tc main_v8) : S50000.Idx → EReal)
      = Cert.ReferenceIdeal.Read.val_main_v8 (F := Ideal) (m ((c : Thread nD τ).loc main_arg1)) :=
  (clip_eq _ _ _ (first_deg m c) (first_one m c)).trans rfl

/-- The aggregate the region reads is the reference's aggregation stage of `x` and `edge_index`. -/
theorem agg_eq (c : Dev nD) :
    (V m c main_v38 : S50000x64.Idx → EReal)
      = Cert.ReferenceIdeal.Read.val_main_v38 (F := Ideal) (m ((c : Thread nD τ).loc main_arg0)) (m ((c : Thread nD τ).loc main_arg1)) := by
  rw [V_stretches]
  exact rest_agg _ _ _ ((clip_keeps_x _).trans (first_x m c)) ((clip_keeps_src _).trans (first_src m c))
    ((clip_keeps_tgt _).trans (first_tgt m c)) (clipped_deg m c)

/-- The matrix the region reads is `W` transposed. -/
theorem wt_eq (c : Dev nD) :
    (V m c main_v39 : S64x64.Idx → EReal)
      = transpose S64x64 [1, 0] (m ((c : Thread nD τ).loc main_arg2)) transposes_S64x64_S64x64_1_0 := by
  rw [V_stretches, rest_wt, clip_keeps_W]
  simp only [hostOps0]; after_results_simp <;> rfl

/-- The row the region reads is `b` as a `[1, 64]` matrix. -/
theorem brow_eq (c : Dev nD) :
    (V m c main_v40 : S1x64.Idx → EReal)
      = shapeCast S1x64 (m ((c : Thread nD τ).loc main_arg3)) shapeCasts_S64_S1x64 := by
  rw [V_stretches, rest_brow, clip_keeps_b]
  simp only [hostOps0]; after_results_simp <;> rfl

end Cert.KernelIdeal.Entry

end
-- ==== Proof.lean ====
/-
  The certificate of a graph-convolution layer's dense tail.

  Both programs build the aggregate `agg` of the node features by the same host chain (degrees by a
  scatter-add, their clipped inverse square roots gathered along both ends of every edge, the source rows of `x`
  gathered, scaled and scatter-added into the target rows) and then compute

      out[i, j] = max (Σ_k agg[i, k] · W[j, k] + b[j], 0).

  The reference does this on the host with one `dot_general` against `Wᵀ`; the kernel does it tile by tile, ten
  tiles of 5000 rows, with a matrix product into a zero accumulator whose operands it first rounds to bf16. On
  the extended reals the rounding is the identity and both products are the same finite sum, so the two results
  are one function of the arguments (Proof/DenseRelu.lean), entry by entry:

  * Proof/RefLayer.lean — the reference's last stage is that function of its aggregation stage;
  * Proof/Tile.lean — one tile's stored entry `(p, q)` is `max (Σ_k a[p, k] · wt[k, q] + brow[0, q], 0)`;
  * Proof/Blocks.lean — tile `t` is rows `5000·t …` of the function, and the ten tiles cover the output;
  * Proof/Entry.lean — the arrays the region finds are the reference's aggregation stage, `Wᵀ` and `b` as a row.

  No law used here needs the inputs to be finite: the precondition is never opened. The three frames are the
  generated ones (the reference's is its run with the result dropped), and the idealization rewrote nothing, so
  `preserves` is `True`.
-/
import proofs.«175641_j30382598651973_1_alg».proof.Defs
import proofs.«175641_j30382598651973_1_alg».proof.Proof.Gen.Kernel
import proofs.«175641_j30382598651973_1_alg».proof.Proof.Gen.Kernel.Skeleton
import proofs.«175641_j30382598651973_1_alg».proof.Proof.Gen.Kernel.Launch
import proofs.«175641_j30382598651973_1_alg».proof.Proof.Gen.Kernel.Points
import proofs.«175641_j30382598651973_1_alg».proof.Proof.Gen.Kernel.Frame
import proofs.«175641_j30382598651973_1_alg».proof.Proof.Gen.KernelIdeal
import proofs.«175641_j30382598651973_1_alg».proof.Proof.Gen.KernelIdeal.Skeleton
import proofs.«175641_j30382598651973_1_alg».proof.Proof.Gen.KernelIdeal.Launch
import proofs.«175641_j30382598651973_1_alg».proof.Proof.Gen.KernelIdeal.Points
import proofs.«175641_j30382598651973_1_alg».proof.Proof.Gen.KernelIdeal.Frame
import proofs.«175641_j30382598651973_1_alg».proof.Proof.Gen.ReferenceIdeal
import proofs.«175641_j30382598651973_1_alg».proof.Proof.Gen.Pre_finite_inputs
import proofs.«175641_j30382598651973_1_alg».proof.Proof.Gen.KernelIdeal.Value
import proofs.«175641_j30382598651973_1_alg».proof.Proof.Gen.ReferenceIdeal.Run
import proofs.«175641_j30382598651973_1_alg».proof.Proof.Gen.ReferenceIdeal.Read
import proofs.«175641_j30382598651973_1_alg».proof.Proof.DenseRelu
import proofs.«175641_j30382598651973_1_alg».proof.Proof.RefLayer
import proofs.«175641_j30382598651973_1_alg».proof.Proof.Blocks
import proofs.«175641_j30382598651973_1_alg».proof.Proof.Entry
import Idealize.ShloMosaic.Adequacy
import Idealize.ShloMosaic.Init

noncomputable section

open Idealize.ShloMosaic Idealize.ShloMosaic.TcCoe Idealize.SL.Sem

/-! ## The kernel's run, with its result named -/

namespace Cert.KernelIdeal.Result

open Cert.KernelIdeal Cert.KernelIdeal.Gen Cert.DenseRelu

variable (m : (ℓ : Loc nD τ sig) → Buf (Elt Ideal) ℓ) (ρ : Dev nD → PrngReg)

/-- The output array after the run is the layer of the reference's aggregation stage, `W` and `b`: the tiles
    give the layer over the region's arrays, those arrays are named, and the transpose and the unit axis are read
    at an index. -/
theorem final_eq (c : Dev nD) :
    (dats m 0 c).arrAt 3 cfg0.N
      = denseRelu (Cert.ReferenceIdeal.Read.val_main_v38 (F := Ideal) (m ((c : Thread nD τ).loc main_arg0)) (m ((c : Thread nD τ).loc main_arg1)))
          (m ((c : Thread nD τ).loc main_arg2)) (m ((c : Thread nD τ).loc main_arg3)) := by
  rw [Blocks.final, Entry.agg_eq, Entry.wt_eq, Entry.brow_eq]
  exact denseReluRows_layout _ _ _ _ _

/-- Every weakly fair execution of the idealized kernel ends with that array as its result and its arguments
    unchanged. -/
theorem run : θ_run defs (onTc (τ := τ) (main (F := Ideal))) ⟨m, fun _ => 0, ρ⟩ fun r => ∀ c : Dev nD,
      r.2.mem ((c : Thread nD τ).loc main_v41)
        = denseRelu (Cert.ReferenceIdeal.Read.val_main_v38 (F := Ideal) (m ((c : Thread nD τ).loc main_arg0)) (m ((c : Thread nD τ).loc main_arg1)))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Cert.KernelIdeal.Value.run_blocks m ρ)

end Cert.KernelIdeal.Result

/-! ## The claims -/

namespace Cert.Proof

open Cert.DenseRelu

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both runs end at the layer of the same aggregate: the kernel's
    by its tiles, the reference's by reading its last stages at an index. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.Layer.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
